-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x2048 : Shape := ⟨3, ![16, 256, 2048]⟩
abbrev S16x2048x4096 : Shape := ⟨3, ![16, 2048, 4096]⟩
abbrev S16x4096 : Shape := ⟨2, ![16, 4096]⟩
abbrev S_ : Shape := ⟨0, ![]⟩

class Facts : Prop where
  bcast_S_S16x256x2048 : S_.BroadcastsInDim S16x256x2048 (![] : Fin 0 → Fin S16x256x2048.rank)
  reducesTo_S16x256x2048_S_d0_1_2 : S16x256x2048.ReducesTo [0, 1, 2] S_
  h_S_ : 0 < S_.numel
  bcast_S_S16x2048x4096 : S_.BroadcastsInDim S16x2048x4096 (![] : Fin 0 → Fin S16x2048x4096.rank)
  reducesTo_S16x2048x4096_S_d0_1_2 : S16x2048x4096.ReducesTo [0, 1, 2] S_
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S16x256x2048 .f32) (main_arg1 : FVec F S16x2048x4096 .f32) (main_arg2 : FVec F S16x4096 .f32) : IVec S_ 1 :=
  let main_v0 : FVec F S16x256x2048 .f32 := Host.absf main_arg0
  let main_cst : FVec F S_ .f32 := constant S_ .f32 0x7F800000#32
  let main_v1 : FVec F S16x256x2048 .f32 := broadcastInDim S16x256x2048 ![] bcast_S_S16x256x2048 main_cst
  let main_v2 : IVec S16x256x2048 1 := cmpf .olt main_v0 main_v1
  let main_c : IVec S_ 1 := constantI S_ 1 1#1
  let main_v3 : IVec S_ 1 := (fun x v => Host.reduce IntOp.andi x v reducesTo_S16x256x2048_S_d0_1_2 h_S_) main_v2 main_c
  let main_v4 : FVec F S16x2048x4096 .f32 := Host.absf main_arg1
  let main_cst_0 : FVec F S_ .f32 := constant S_ .f32 0x7F800000#32
  let main_v5 : FVec F S16x2048x4096 .f32 := broadcastInDim S16x2048x4096 ![] bcast_S_S16x2048x4096 main_cst_0
  let main_v6 : IVec S16x2048x4096 1 := cmpf .olt main_v4 main_v5
  let main_c_1 : IVec S_ 1 := constantI S_ 1 1#1
  let main_v7 : IVec S_ 1 := (fun x v => Host.reduce IntOp.andi x v reducesTo_S16x2048x4096_S_d0_1_2 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  main_v13
-- ==== Kernel.lean ====
abbrev S16x256x2048 : Shape := ⟨3, ![16, 256, 2048]⟩
abbrev S16x2048x4096 : Shape := ⟨3, ![16, 2048, 4096]⟩
abbrev S16x4096 : Shape := ⟨2, ![16, 4096]⟩
abbrev S16x1x4096 : Shape := ⟨3, ![16, 1, 4096]⟩
abbrev S16x256x4096 : Shape := ⟨3, ![16, 256, 4096]⟩
abbrev S1x256x2048 : Shape := ⟨3, ![1, 256, 2048]⟩
abbrev S1x2048x512 : Shape := ⟨3, ![1, 2048, 512]⟩
abbrev S1x1x512 : Shape := ⟨3, ![1, 1, 512]⟩
abbrev S1x256x512 : Shape := ⟨3, ![1, 256, 512]⟩
abbrev S256x2048 : Shape := ⟨2, ![256, 2048]⟩
abbrev S2048x512 : Shape := ⟨2, ![2048, 512]⟩
abbrev S1x512 : Shape := ⟨2, ![1, 512]⟩
abbrev S256x512 : Shape := ⟨2, ![256, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x256x2048, .f32⟩
  | .hbm, ⟨1, _⟩ => ⟨S16x2048x4096, .f32⟩
  | .hbm, ⟨2, _⟩ => ⟨S16x4096, .f32⟩
  | .hbm, ⟨3, _⟩ => ⟨S16x1x4096, .f32⟩
  | .hbm, ⟨4, _⟩ => ⟨S16x256x4096, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x1x512, .f32⟩
  | .local _ .vmem, ⟨5, _⟩ => ⟨S1x1x512, .f32⟩
  | .local _ .vmem, ⟨6, _⟩ => ⟨S1x256x512, .f32⟩
  | .local _ .vmem, ⟨7, _⟩ => ⟨S1x256x512, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S16x4096_S16x1x4096_0_2 : S16x4096.BroadcastsInDim S16x1x4096 (![0, 2] : Fin 2 → Fin S16x1x4096.rank)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S16x256x2048.size a
  hwx0_0 : ∀ i : grid0.Coords, EltTy.bits .f32 = 32 ∨ (Rect.block (s := S16x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S16x2048x4096.size a
  hwx0_1 : ∀ i : grid0.Coords, EltTy.bits .f32 = 32 ∨ (Rect.block (s := S16x2048x4096) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x4096.size a
  hwx0_2 : ∀ i : grid0.Coords, EltTy.bits .f32 = 32 ∨ (Rect.block (s := S16x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x512.size a ≤ S16x256x4096.size a
  hwx0_3 : ∀ i : grid0.Coords, EltTy.bits .f32 = 32 ∨ (Rect.block (s := S16x256x4096) S1x256x512.size (cc0_transform_3 i) (hinb0_3 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x256x2048 : Shape := ⟨3, ![16, 256, 2048]⟩
abbrev S16x2048x4096 : Shape := ⟨3, ![16, 2048, 4096]⟩
abbrev S16x4096 : Shape := ⟨2, ![16, 4096]⟩
abbrev S16x1x4096 : Shape := ⟨3, ![16, 1, 4096]⟩
abbrev S16x256x4096 : Shape := ⟨3, ![16, 256, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S16x2048x4096, .f32⟩
  | .hbm, ⟨2, _⟩ => ⟨S16x4096, .f32⟩
  | .hbm, ⟨3, _⟩ => ⟨S16x1x4096, .f32⟩
  | .hbm, ⟨4, _⟩ => ⟨S16x2048x4096, .f32⟩
  | .hbm, ⟨5, _⟩ => ⟨S16x2048x4096, .f32⟩
  | .hbm, ⟨6, _⟩ => ⟨S16x256x4096, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16x4096_S16x1x4096_0_2 : S16x4096.BroadcastsInDim S16x1x4096 (![0, 2] : Fin 2 → Fin S16x1x4096.rank)
  bcast_S16x1x4096_S16x2048x4096_0_1_2 : S16x1x4096.BroadcastsInDim S16x2048x4096 (![0, 1, 2] : Fin 3 → Fin S16x2048x4096.rank)
  dot_S16x256x2048_S16x2048x4096_S16x256x4096_2_1_1_2_0_0_wf : DotDims.WF S16x256x2048 S16x2048x4096 S16x256x4096 [2] [1] [1] [2] [0] [0]

variable [Facts₀]

def dot_S16x256x2048_S16x2048x4096_S16x256x4096_2_1_1_2_0_0 : DotDims S16x256x2048 S16x2048x4096 S16x256x4096 where
  lhsContracting := [2]
  rhsContracting := [1]
  lhsNonContracting := [1]
  rhsNonContracting := [2]
  lhsBatch := [0]
  rhsBatch := [0]
  wf := dot_S16x256x2048_S16x2048x4096_S16x256x4096_2_1_1_2_0_0_wf

class Facts : Prop extends Facts₀ where

variable [Facts]
-- ==== Proof.Spec.lean ====
/-
  The unpooling map, as one function of the three argument arrays.

  For a batch `b`, a feature row `f` and a target column `t`, the result entry is the sum over the 2048
  source edges `e` of the feature entry `x[b, f, e]` times the group weight `g[b, e, t]` divided by
  the occurrence count `o[b, t]` of that target column. The quotient is taken BEFORE the product and
  inside the sum, in both programs, so the two sides agree summand by summand: no law of the extended
  reals beyond reindexing a finite sum is used, and nothing here asks the entries to be finite.
-/
import Idealize.ShloMosaic.PureOps.Ideal
import Idealize.ShloMosaic.Lib.ValueIdx

noncomputable section

open scoped BigOperators

namespace Cert.Unpool

open Idealize.ShloMosaic Idealize.ShloMosaic.ValueIdx

/-- The features: batch × feature row × source edge. -/
abbrev SFeat : Shape := ⟨3, ![16, 256, 2048]⟩
/-- The group weights: batch × source edge × target column. -/
abbrev SGrp : Shape := ⟨3, ![16, 2048, 4096]⟩
/-- The occurrence counts: batch × target column. -/
abbrev SOcc : Shape := ⟨2, ![16, 4096]⟩
/-- The result: batch × feature row × target column. -/
abbrev SRes : Shape := ⟨3, ![16, 256, 4096]⟩

/-- One summand: the feature entry at source edge `e` times that edge's weight into column `t`, the weight
    first divided by the column's occurrence count. -/
def term (x : SFeat.Idx → EReal) (g : SGrp.Idx → EReal) (o : SOcc.Idx → EReal)
    (b : Fin 16) (f : Fin 256) (t : Fin 4096) (e : Fin 2048) : EReal :=
  x (ix3 b f e) * Ideal.div (g (ix3 b e t)) (o (ix2 b t))

/-- The unpooled array: at (b, f, t) the sum of the summands over all source edges. -/
def unpool (x : SFeat.Idx → EReal) (g : SGrp.Idx → EReal) (o : SOcc.Idx → EReal) : SRes.Idx → EReal :=
  fun i => ∑ e : Fin 2048, term x g o (i 0) (i 1) (i 2) e

/-- The same entry read at explicit coordinates. -/
theorem unpool_ix3 (x : SFeat.Idx → EReal) (g : SGrp.Idx → EReal) (o : SOcc.Idx → EReal)
    (b : Fin 16) (f : Fin 256) (t : Fin 4096) :
    unpool x g o (ix3 b f t) = ∑ e : Fin 2048, term x g o b f t e := rfl

end Cert.Unpool

end
-- ==== Proof.RefUnpool.lean ====
/-
  The reference computes the unpooling map.

  Its four host operations are: the occurrence counts [16, 4096] given a unit middle axis, that array
  repeated along the 2048 source edges, the group weights divided by it entry by entry, and the
  batched product of the features with that quotient, contracting the source-edge axis. Read at a
  result index (b, f, t) the product is the sum over edges `e` of `x[b, f, e]` times the quotient
  at (b, e, t), and the quotient's divisor, read back through the two repetitions, is the count at
  (b, t): exactly the summand of `Cert.Unpool.term`.
-/
import proofs.«118740_j7464653160711_1_alg».proof.Proof.Gen.ReferenceIdeal.Read
import proofs.«118740_j7464653160711_1_alg».proof.Proof.Spec

noncomputable section

open scoped BigOperators

namespace Cert.ReferenceIdeal.Unpooled

open Cert.ReferenceIdeal Cert.ReferenceIdeal.Gen Cert.ReferenceIdeal.Read
open Idealize.ShloMosaic Idealize.ShloMosaic.ValueIdx

/-- The product's left operand is read at (b, f, e). -/
theorem left_index (i : S16x256x4096.Idx) (e : Fin 2048) : lidx_main_v3 i e = ix3 (i 0) (i 1) e :=
  funext fun a => Fin.ext (by match a with | ⟨0, _⟩ => rfl | ⟨1, _⟩ => rfl | ⟨2, _⟩ => rfl)

/-- The product's right operand is read at (b, e, t). -/
theorem right_index (i : S16x256x4096.Idx) (e : Fin 2048) : ridx_main_v3 i e = ix3 (i 0) e (i 2) :=
  funext fun a => Fin.ext (by match a with | ⟨0, _⟩ => rfl | ⟨1, _⟩ => rfl | ⟨2, _⟩ => rfl)

/-- The divisor at (b, e, t), read back through the two repetitions, is the count at (b, t): the
    source-edge coordinate is forgotten. -/
theorem count_index (b : Fin 16) (e : Fin 2048) (t : Fin 4096) :
    idx_main_v0 (idx_main_v1 (ix3 b e t)) = ix2 b t :=
  funext fun a => Fin.ext (by match a with | ⟨0, _⟩ => rfl | ⟨1, _⟩ => rfl)

/-- The reference's result, as a function of the three argument arrays, is the unpooling map. -/
theorem result_eq (x : (⟨S16x256x2048, .f32⟩ : BufTy).Contents (Elt Ideal))
    (g : (⟨S16x2048x4096, .f32⟩ : BufTy).Contents (Elt Ideal))
    (o : (⟨S16x4096, .f32⟩ : BufTy).Contents (Elt Ideal)) :
    val_main_v3 (F := Ideal) x g o = Cert.Unpool.unpool x g o := by
  funext i
  rw [val_main_v3_apply]
  unfold Cert.Unpool.unpool Cert.Unpool.term
  refine Finset.sum_congr rfl fun e _ => ?_
  rw [val_main_v2_apply, val_main_v1_apply, val_main_v0_apply, left_index, right_index]
  exact congrArg (fun k => x (ix3 (i 0) (i 1) e) * Ideal.div (g (ix3 (i 0) e (i 2))) (o k)) (count_index (i 0) e (i 2))

end Cert.ReferenceIdeal.Unpooled

end
-- ==== Proof.Payload.lean ====
/-
  What the kernel body computes from its three loaded blocks, entry by entry.

  At a grid point the body holds one batch's features [1, 256, 2048], a 512-column strip of that
  batch's group weights [1, 2048, 512] and the same strip of the occurrence counts [1, 1, 512]. It
  drops the unit axes, repeats the counts' one row down the 2048 edges, divides the weights by it,
  and multiplies the features by the quotient as one matrix product into a zero accumulator. The two
  changes of float format are the identity on the extended reals. So the stored entry at feature row
  `f` and strip column `s` is the sum over edges `e` of the feature at (f, e) times the weight at
  (e, s) divided by the count at `s`.
-/
import proofs.«118740_j7464653160711_1_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-! ## The matrix product's operand indices, axis by axis

The product contracts the features' second axis with the quotient's first; there is no batch axis. -/

/-- The left operand's row is the result's row. -/
theorem lhs_row (j : S256x512.Idx) (q : dot_S256x2048_S2048x512_S256x512_1_0_0_1_n_n.contr.Idx) :
    (dot_S256x2048_S2048x512_S256x512_1_0_0_1_n_n.lhsIdx j q 0).val = (j 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl

/-- The left operand's column is the contracted edge. -/
theorem lhs_edge (j : S256x512.Idx) (q : dot_S256x2048_S2048x512_S256x512_1_0_0_1_n_n.contr.Idx) :
    (dot_S256x2048_S2048x512_S256x512_1_0_0_1_n_n.lhsIdx j q 1).val = (q ⟨0, by decide⟩).val :=
  dot_S256x2048_S2048x512_S256x512_1_0_0_1_n_n.lhsIdx_val_of_single rfl j q

/-- The right operand's row is the contracted edge. -/
theorem rhs_edge (j : S256x512.Idx) (q : dot_S256x2048_S2048x512_S256x512_1_0_0_1_n_n.contr.Idx) :
    (dot_S256x2048_S2048x512_S256x512_1_0_0_1_n_n.rhsIdx j q 0).val = (q ⟨0, by decide⟩).val :=
  dot_S256x2048_S2048x512_S256x512_1_0_0_1_n_n.rhsIdx_val_of_single rfl j q

/-- The right operand's column is the result's column. -/
theorem rhs_col (j : S256x512.Idx) (q : dot_S256x2048_S2048x512_S256x512_1_0_0_1_n_n.contr.Idx) :
    (dot_S256x2048_S2048x512_S256x512_1_0_0_1_n_n.rhsIdx j q 1).val = (j 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- The product into a zero accumulator, at (f, s): the sum over the 2048 edges of the left operand at
    (f, e) times the right operand at (e, s). -/
theorem product_apply (a : FVec Ideal S256x2048 .bf16) (w : FVec Ideal S2048x512 .bf16) (f : Fin 256) (s : Fin 512) :
    matmul dot_S256x2048_S2048x512_S256x512_1_0_0_1_n_n none a w (constant (F := Ideal) S256x512 .f32 0x00000000#32) (ix2 f s)
      = ∑ e : Fin 2048, a (ix2 f e) * w (ix2 e s) := by
  show FloatOps.matmul dot_S256x2048_S2048x512_S256x512_1_0_0_1_n_n none a w (constant (F := Ideal) S256x512 .f32 0x00000000#32) (ix2 f s) = _
  rw [Ideal.matmul_constant_zero_apply, ← Equiv.sum_comp (contrEquiv1 dot_S256x2048_S2048x512_S256x512_1_0_0_1_n_n 2048 rfl rfl).symm]
  refine Finset.sum_congr rfl fun e _ => ?_
  have he := contrEquiv1_symm_val dot_S256x2048_S2048x512_S256x512_1_0_0_1_n_n 2048 rfl rfl e
  have el : dot_S256x2048_S2048x512_S256x512_1_0_0_1_n_n.lhsIdx (ix2 f s) ((contrEquiv1 dot_S256x2048_S2048x512_S256x512_1_0_0_1_n_n 2048 rfl rfl).symm e) = ix2 f e := funext fun ax => Fin.ext (by
    match ax with
    | ⟨0, _⟩ => exact lhs_row _ _
    | ⟨1, _⟩ => exact (lhs_edge _ _).trans he)
  have er : dot_S256x2048_S2048x512_S256x512_1_0_0_1_n_n.rhsIdx (ix2 f s) ((contrEquiv1 dot_S256x2048_S2048x512_S256x512_1_0_0_1_n_n 2048 rfl rfl).symm e) = ix2 e s := funext fun ax => Fin.ext (by
    match ax with
    | ⟨0, _⟩ => exact (rhs_edge _ _).trans he
    | ⟨1, _⟩ => exact rhs_col _ _)
  rw [el, er]

/-- THE STORED BLOCK at (0, f, s), from the three loaded blocks. -/
theorem stored_apply (xb : Vec Ideal S1x256x2048 .f32) (gb : Vec Ideal S1x2048x512 .f32) (ob : Vec Ideal S1x1x512 .f32)
    (u : Fin 1) (f : Fin 256) (s : Fin 512) :
    k0_pay1 (F := Ideal) xb gb ob (ix3 u f s)
      = ∑ e : Fin 2048, xb (ix3 (0 : Fin 1) f e) * Ideal.div (gb (ix3 (0 : Fin 1) e s)) (ob (ix3 (0 : Fin 1) (0 : Fin 1) s)) := by
  unfold k0_pay1
  refine (shapeCast_ab_1ab_apply _ _ u f s).trans ?_
  refine (product_apply _ _ f s).trans ?_
  refine Finset.sum_congr rfl fun e _ => ?_
  rw [truncf_apply, truncf_apply, divf_apply, shapeCast_1ab_ab_apply, shapeCast_1ab_ab_apply,
    broadcastTo_1b_ab_apply, shapeCast_1ab_ab_apply]

end Cert.KernelIdeal.Body

end
-- ==== Proof.Whole.lean ====
/-
  From the blocks to the whole array.

  The grid has 16 × 8 points: point (b, s) takes batch `b`'s whole feature matrix, the columns
  [512 s, 512 s + 512) of that batch's group weights and of its occurrence counts, and writes the same
  columns of batch `b`'s result. So an entry of a loaded block is an entry of the corresponding array at
  the block's offset, the block written back at a point is that point's rectangle of the unpooling map
  (`Cert.Unpool.unpool`), and the 128 rectangles tile the result: the column `t` of batch `b` lies in
  the rectangle of the point (b, t / 512). The counts reach the region with a unit middle axis that the
  host put there before the launch; dropping it again gives back the counts as launched.
-/
import proofs.«118740_j7464653160711_1_alg».proof.Proof.Gen.KernelIdeal.Value
import proofs.«118740_j7464653160711_1_alg».proof.Proof.Spec
import proofs.«118740_j7464653160711_1_alg».proof.Proof.Payload
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- Every block is loaded and stored from its origin. -/
theorem origin : (![0, 0, 0] : Fin 3 → Nat) = fun _ => 0 := funext fun a => by fin_cases a <;> rfl

/-- The counts with their unit middle axis dropped: [16, 1, 4096] read as [16, 4096]. -/
abbrev squeeze (o : S16x1x4096.Idx → EReal) : S16x4096.Idx → EReal := fun k => o (ix3 (k 0) (0 : Fin 1) (k 1))

/-! ## One block's entry is an entry of the unpooling map -/

/-- If the three loaded blocks hold, around the block entry `j`, the arrays' entries around the array index
    `i` — the feature row of `i`, the weight column of `i`, the count of `i`'s column, all in `i`'s batch —,
    then the body's stored entry at `j` is the unpooling map at `i`. -/
theorem block_value (xb : Vec Ideal S1x256x2048 .f32) (gb : Vec Ideal S1x2048x512 .f32) (ob : Vec Ideal S1x1x512 .f32)
    (X : S16x256x2048.Idx → EReal) (G : S16x2048x4096.Idx → EReal) (O : S16x1x4096.Idx → EReal)
    (j : S1x256x512.Idx) (i : S16x256x4096.Idx)
    (hx : ∀ e : Fin 2048, xb (ix3 (0 : Fin 1) (j 1) e) = X (ix3 (i 0) (i 1) e))
    (hg : ∀ e : Fin 2048, gb (ix3 (0 : Fin 1) e (j 2)) = G (ix3 (i 0) e (i 2)))
    (ho : ob (ix3 (0 : Fin 1) (0 : Fin 1) (j 2)) = O (ix3 (i 0) (0 : Fin 1) (i 2))) :
    k0_pay1 (F := Ideal) xb gb ob j = Cert.Unpool.unpool X G (squeeze O) i := by
  refine (congrArg (k0_pay1 (F := Ideal) xb gb ob) (eq_ix3 j)).trans ?_
  refine (Cert.KernelIdeal.Body.stored_apply xb gb ob (j 0) (j 1) (j 2)).trans ?_
  unfold Cert.Unpool.unpool Cert.Unpool.term
  refine Finset.sum_congr rfl fun e _ => ?_
  exact congrArg₂ (· * ·) (hx e) (congrArg₂ Ideal.div (hg e) ho)

/-! ## The index maps, decided over the 128 grid points -/

/-- Every window moves with the result's: same batch; the features never move along their other two axes; the
    weights and the counts take the result's column strip. The result's block indices stay in their ranges. -/
theorem index_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = win0_3.index t (2 : Fin 3)
    ∧ win0_2.index t (0 : Fin 3) = win0_3.index t (0 : Fin 3) ∧ win0_2.index t (1 : Fin 3) = 0 ∧ win0_2.index t (2 : Fin 3) = win0_3.index t (2 : Fin 3)
    ∧ win0_3.index t (0 : Fin 3) ≤ 15 ∧ win0_3.index t (1 : Fin 3) = 0 ∧ win0_3.index t (2 : Fin 3) ≤ 7 :=
  (by decide +kernel : ∀ t : Fin grid0.N, _)

/-- Every (batch, column strip) is some point's. -/
theorem index_onto : ∀ (b : Fin 16) (s : Fin 8), ∃ t : Fin cfg0.N, win0_3.index t = ![b.val, 0, s.val] :=
  (by decide +kernel : ∀ (b : Fin 16) (s : Fin 8), ∃ t : Fin grid0.N, win0_3.index t = ![b.val, 0, s.val])

/-! ## What a point writes back -/

/-- WHAT POINT `t` WRITES BACK is its rectangle of the unpooling map of the arrays as the region finds them. -/
theorem flushed_eq (c : Dev nD) (t : Fin cfg0.N) :
    (dats m 0 c).flushed 3 t
      = ((cfg0.win 3).blk t).view.read (Elt Ideal) (Cert.Unpool.unpool (V m c main_arg0) (V m c main_arg1) (squeeze (V m c main_v0))) := by
  rw [Cert.KernelIdeal.Value.flushed3]
  unfold out0_3
  rw [View.canon_unit_zero origin]
  simp only [View.ld_unit_zero (S := S1x256x2048) origin, View.ld_unit_zero (S := S1x2048x512) origin, View.ld_unit_zero (S := S1x1x512) origin]
  obtain ⟨a0, a1, a2, b0, b1, b2, c0, c1, c2, d0, d1, d2⟩ := index_facts t
  funext j
  have hj0 : (j 0).val < 1 := (j 0).isLt
  have hj1 : (j 1).val < 256 := (j 1).isLt
  have hj2 : (j 2).val < 512 := (j 2).isLt
  refine block_value (iblk m c 0 t) (iblk m c 1 t) (iblk m c 2 t) (V m c main_arg0) (V m c main_arg1) (V m c main_v0) j (((cfg0.win 3).blk t).view.emb j) ?_ ?_ ?_
  · intro e
    show V m c main_arg0 (((cfg0.win 0).blk t).view.emb (ix3 (0 : Fin 1) (j 1) e)) = _
    refine congrArg (V m c main_arg0) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 256 + 1 * (j 1).val = win0_3.index t (1 : Fin 3) * 256 + 1 * (j 1).val; omega
    | ⟨2, _⟩ => show win0_0.index t (2 : Fin 3) * 2048 + 1 * e.val = e.val; omega
  · intro e
    show V m c main_arg1 (((cfg0.win 1).blk t).view.emb (ix3 (0 : Fin 1) e (j 2))) = _
    refine congrArg (V m c main_arg1) (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 2048 + 1 * e.val = e.val; omega
    | ⟨2, _⟩ => show win0_1.index t (2 : Fin 3) * 512 + 1 * (j 2).val = win0_3.index t (2 : Fin 3) * 512 + 1 * (j 2).val; omega
  · show V m c main_v0 (((cfg0.win 2).blk t).view.emb (ix3 (0 : Fin 1) (0 : Fin 1) (j 2))) = _
    refine congrArg (V m c main_v0) (funext fun a => Fin.ext ?_)
    match a with
    | ⟨0, _⟩ => show win0_2.index t (0 : Fin 3) * 1 + 1 * 0 = win0_3.index t (0 : Fin 3) * 1 + 1 * (j 0).val; omega
    | ⟨1, _⟩ => show win0_2.index t (1 : Fin 3) * 1 + 1 * 0 = 0; omega
    | ⟨2, _⟩ => show win0_2.index t (2 : Fin 3) * 512 + 1 * (j 2).val = win0_3.index t (2 : Fin 3) * 512 + 1 * (j 2).val; omega

/-! ## The rectangles tile the result -/

/-- An index of the result is in point `t`'s rectangle iff each coordinate is in the rectangle's range on its axis. -/
theorem mem_rectangle (t : Fin cfg0.N) (i : S16x256x4096.Idx) :
    i ∈ ((cfg0.win 3).blk t).view.set ↔ ∀ a : Fin 3, win0_3.index t a * S1x256x512.size a ≤ (i a).val ∧ (i a).val < win0_3.index t a * S1x256x512.size a + S1x256x512.size a := by
  show i ∈ ((View.whole main_v1).slice (win0_3.rect t)).set ↔ _
  rw [View.set_slice_whole, Rect.mem_set_unit]
  exact Iff.rfl

/-- Every index of the result is in some point's rectangle: the point of its batch and of its column's strip. -/
theorem tiled (i : S16x256x4096.Idx) : ∃ t : Fin cfg0.N, (cfg0.win 3).flush t = true ∧ i ∈ ((cfg0.win 3).blk t).view.set := by
  have hi0 : (i 0).val < 16 := (i 0).isLt
  have hi1 : (i 1).val < 256 := (i 1).isLt
  have hi2 : (i 2).val < 4096 := (i 2).isLt
  obtain ⟨t, ht⟩ := index_onto ⟨(i 0).val, hi0⟩ ⟨(i 2).val / 512, by omega⟩
  have q0 : win0_3.index t (0 : Fin 3) = (i 0).val := congrFun ht 0
  have q1 : win0_3.index t (1 : Fin 3) = 0 := congrFun ht 1
  have q2 : win0_3.index t (2 : Fin 3) = (i 2).val / 512 := congrFun ht 2
  refine ⟨t, flush0_3 t, ?_⟩
  rw [mem_rectangle]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 512 ≤ (i 2).val ∧ (i 2).val < win0_3.index t (2 : Fin 3) * 512 + 512; omega

/-! ## The counts as the region finds them -/

/-- Before the launch the host gives the counts a unit middle axis: the region finds that array. -/
theorem counts_entry (c : Dev nD) :
    (V m c main_v0 : S16x1x4096.Idx → EReal)
      = broadcastInDim S16x1x4096 ![0, 2] bcast_S16x4096_S16x1x4096_0_2 (m ((c : Thread nD τ).loc main_arg2)) := by
  dsimp only [Gen.V, Gen.hostOps0]; after_results

/-- Dropping the unit axis again gives back the counts as launched. -/
theorem counts_squeezed (c : Dev nD) : squeeze (V m c main_v0) = m ((c : Thread nD τ).loc main_arg2) := by
  funext k
  refine (congrFun (counts_entry m c) (ix3 (k 0) (0 : Fin 1) (k 1))).trans ?_
  exact broadcastInDim_apply _ bcast_S16x4096_S16x1x4096_0_2 _ (ix3 (k 0) (0 : Fin 1) (k 1)) k (fun a => match a with
    | ⟨0, _⟩ => by show (k 0).val = if (16 : Nat) = 1 then 0 else (k 0).val; rw [if_neg (by decide)]
    | ⟨1, _⟩ => by show (k 1).val = if (4096 : Nat) = 1 then 0 else (k 1).val; rw [if_neg (by decide)])

/-! ## The result array after the run -/

/-- THE RESULT ARRAY after the run is the unpooling map of the three arguments as launched. -/
theorem final (c : Dev nD) :
    (dats m 0 c).arrAt 3 cfg0.N
      = Cert.Unpool.unpool (m ((c : Thread nD τ).loc main_arg0)) (m ((c : Thread nD τ).loc main_arg1)) (m ((c : Thread nD τ).loc main_arg2)) := by
  rw [(dats m 0 c).arrAt_eq_of_cover 3 _ (fun t _ => flushed_eq m c t) tiled, V_main_arg0, V_main_arg1, counts_squeezed]

/-- The kernel's run, read: the result at the unpooling map of the arguments, the arguments unchanged. -/
theorem run : θ_run defs (onTc (τ := τ) (main (F := Ideal))) ⟨m, fun _ => 0, ρ⟩ fun r => ∀ c : Dev nD,
      r.2.mem ((c : Thread nD τ).loc main_v1)
        = Cert.Unpool.unpool (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.lean ====
/-
  Mesh unpooling: the kernel against its reference, over the extended reals.

  Both programs compute, for a batch `b`, a feature row `f` and a target column `t`,

      res[b, f, t] = Σ_e features[b, f, e] · (groups[b, e, t] / occurrences[b, t]),

  the sum over the 2048 source edges. The reference divides the whole weight array by the counts
  (repeated along the edges) and takes one batched product. The kernel walks a 16 × 8 grid — one batch,
  one strip of 512 target columns per point —, divides the strip of weights by the strip of counts, and
  multiplies the batch's features by the quotient in one matrix product into a zero accumulator; its two
  roundings of the product's operands to a shorter float format are the identity on the extended reals.
  So the two results agree summand by summand: no distributivity, no cancelling, and the finiteness of
  the inputs is never used. The ideal pass rewrote nothing, so the kernel's idealization is its own text.

  `Proof/Spec.lean` states the map; `Proof/RefUnpool.lean` reads the reference's run as that map;
  `Proof/Payload.lean` reads one point's stored block entry by entry; `Proof/Whole.lean` sets the 128
  blocks side by side into the whole result array. Here the claims are assembled.
-/
import proofs.«118740_j7464653160711_1_alg».proof.Defs
import proofs.«118740_j7464653160711_1_alg».proof.Proof.Gen.Kernel
import proofs.«118740_j7464653160711_1_alg».proof.Proof.Gen.Kernel.Skeleton
import proofs.«118740_j7464653160711_1_alg».proof.Proof.Gen.Kernel.Launch
import proofs.«118740_j7464653160711_1_alg».proof.Proof.Gen.Kernel.Points
import proofs.«118740_j7464653160711_1_alg».proof.Proof.Gen.Kernel.Frame
import proofs.«118740_j7464653160711_1_alg».proof.Proof.Gen.KernelIdeal
import proofs.«118740_j7464653160711_1_alg».proof.Proof.Gen.KernelIdeal.Skeleton
import proofs.«118740_j7464653160711_1_alg».proof.Proof.Gen.KernelIdeal.Launch
import proofs.«118740_j7464653160711_1_alg».proof.Proof.Gen.KernelIdeal.Points
import proofs.«118740_j7464653160711_1_alg».proof.Proof.Gen.KernelIdeal.Frame
import proofs.«118740_j7464653160711_1_alg».proof.Proof.Gen.ReferenceIdeal
import proofs.«118740_j7464653160711_1_alg».proof.Proof.Gen.Pre_finite_inputs
import proofs.«118740_j7464653160711_1_alg».proof.Proof.Gen.KernelIdeal.Value
import proofs.«118740_j7464653160711_1_alg».proof.Proof.Gen.ReferenceIdeal.Run
import proofs.«118740_j7464653160711_1_alg».proof.Proof.Gen.ReferenceIdeal.Read
import proofs.«118740_j7464653160711_1_alg».proof.Proof.Spec
import proofs.«118740_j7464653160711_1_alg».proof.Proof.RefUnpool
import proofs.«118740_j7464653160711_1_alg».proof.Proof.Payload
import proofs.«118740_j7464653160711_1_alg».proof.Proof.Whole
import Idealize.ShloMosaic.Adequacy
import Idealize.ShloMosaic.Init

noncomputable section

namespace Cert.Proof

open Idealize.ShloMosaic Idealize.SL.Sem

/-- The kernel as printed runs to the end and leaves its three arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is four host operations in a row: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation: there is nothing to restate. -/
theorem preserves : Cert.preserves_Kernel_KernelIdeal := trivial

/-- From memories that agree on the three arguments both programs end with the unpooling map of those
    arguments in their result: the kernel block by block (`Whole.run`), the reference as one batched product
    of the features with the quotient (`Unpooled.result_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Unpooled.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
